-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn_part1 {F : FTy → Type} [FloatOps F] (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  main_v18

def fn {F : FTy → Type} [FloatOps F] (main_arg0 : FVec F S8x2048x2048 .f32) (main_arg1 : FVec F S8x2048x4096 .f32) (main_arg2 : FVec F S8x2048x4096 .f32) (main_arg3 : FVec F S8x4096x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x4096 .f32 := Host.absf main_arg2
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x4096x2048 .f32 := Host.absf main_arg3
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_v13 main_v16
-- ==== Kernel.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S1x512x2048 : Shape := ⟨3, ![1, 512, 2048]⟩
abbrev S1x2048x512 : Shape := ⟨3, ![1, 2048, 512]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x2048, .bf16⟩
  | .hbm, ⟨5, _⟩ => ⟨S8x2048x4096, .bf16⟩
  | .hbm, ⟨6, _⟩ => ⟨S8x2048x4096, .bf16⟩
  | .hbm, ⟨7, _⟩ => ⟨S8x4096x2048, .bf16⟩
  | .hbm, ⟨8, _⟩ => ⟨S8x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S512x2048_S1x512x2048 : S512x2048.ShapeCasts S1x512x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .bf16 = 32 ∨ (Rect.block (s := S8x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x4096.size a
  hwx0_1 : ∀ i : grid0.Coords, EltTy.bits .bf16 = 32 ∨ (Rect.block (s := S8x2048x4096) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x4096.size a
  hwx0_2 : ∀ i : grid0.Coords, EltTy.bits .bf16 = 32 ∨ (Rect.block (s := S8x2048x4096) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x4096x2048.size a
  hwx0_3 : ∀ i : grid0.Coords, EltTy.bits .bf16 = 32 ∨ (Rect.block (s := S8x4096x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x2048_S8x2048x4096_S8x2048x4096_2_1_1_2_0_0_wf : DotDims.WF S8x2048x2048 S8x2048x4096 S8x2048x4096 [2] [1] [1] [2] [0] [0]
  dot_S8x2048x4096_S8x4096x2048_S8x2048x2048_2_1_1_2_0_0_wf : DotDims.WF S8x2048x4096 S8x4096x2048 S8x2048x2048 [2] [1] [1] [2] [0] [0]

variable [Facts₀]

def dot_S8x2048x2048_S8x2048x4096_S8x2048x4096_2_1_1_2_0_0 : DotDims S8x2048x2048 S8x2048x4096 S8x2048x4096 where
  lhsContracting := [2]
  rhsContracting := [1]
  lhsNonContracting := [1]
  rhsNonContracting := [2]
  lhsBatch := [0]
  rhsBatch := [0]
  wf := dot_S8x2048x2048_S8x2048x4096_S8x2048x4096_2_1_1_2_0_0_wf
def dot_S8x2048x4096_S8x4096x2048_S8x2048x2048_2_1_1_2_0_0 : DotDims S8x2048x4096 S8x4096x2048 S8x2048x2048 where
  lhsContracting := [2]
  rhsContracting := [1]
  lhsNonContracting := [1]
  rhsNonContracting := [2]
  lhsBatch := [0]
  rhsBatch := [0]
  wf := dot_S8x2048x4096_S8x4096x2048_S8x2048x2048_2_1_1_2_0_0_wf

class Facts : Prop extends Facts₀ where

variable [Facts]
-- ==== Proof.Spec.lean ====
/-
  The mathematics of the gated expert network, with no program in sight.

  For each of 8 experts `e`, each of 2048 tokens `t` and each of 2048 output features `d` the result is
    out[e, t, d] = Σ_{i < 4096} h[e, t, i] · Wo[e, i, d],
    h[e, t, i]   = (g · logistic g) · u,   g = Σ_{k < 2048} x[e, t, k] · Wg[e, k, i],   u = Σ_{k < 2048} x[e, t, k] · Wi[e, k, i],
  all on the extended reals (`logistic g = 1 / (1 + e^(-g))`, so `g · logistic g` is SiLU).

  The kernel walks a grid of 8 × 4 × 8 points, numbered row-major: point `n` works for expert `(n / 32) % 8`, on the
  512 token rows starting at `512 · ((n / 8) % 4)`, and on the 512 hidden features starting at `512 · (n % 8)`. At each
  point it adds, into an accumulator zeroed at the first of every eight points, the partial sum of the last formula
  over that point's 512 hidden features (`addend`). Eight consecutive points' addends are the whole sum over 4096: a sum over
  `Fin 4096` is the double sum over eight tiles of 512 (`sum_tiles`), which needs only that addition of extended reals is
  commutative and associative — nothing about finiteness.
-/
import Idealize.ShloMosaic.PureOps.Ideal
import Idealize.ShloMosaic.Lib.ValueIdx

noncomputable section

open scoped BigOperators

namespace Cert.GatedExperts

open Idealize.ShloMosaic Idealize.ShloMosaic.ValueIdx

/-- Tokens [8, 2048, 2048], the two input projections [8, 2048, 4096], the output projection [8, 4096, 2048]. -/
abbrev STok : Shape := ⟨3, ![8, 2048, 2048]⟩
abbrev SIn : Shape := ⟨3, ![8, 2048, 4096]⟩
abbrev SOut : Shape := ⟨3, ![8, 4096, 2048]⟩
/-- One accumulator block: 512 token rows by 2048 output features. -/
abbrev SAcc : Shape := ⟨2, ![512, 2048]⟩

/-- One entry of a token block times a projection: `Σ_k x[e, t, k] · W[e, k, i]`. -/
def proj (X : STok.Idx → EReal) (W : SIn.Idx → EReal) (e : Fin 8) (t : Fin 2048) (i : Fin 4096) : EReal :=
  ∑ k : Fin 2048, X (ix3 e t k) * W (ix3 e k i)

/-- The hidden activation `SiLU(x·Wg) · (x·Wi)` at one entry. -/
def gated (X : STok.Idx → EReal) (Wg Wi : SIn.Idx → EReal) (e : Fin 8) (t : Fin 2048) (i : Fin 4096) : EReal :=
  proj X Wg e t i * Ideal.logistic (proj X Wg e t i) * proj X Wi e t i

/-- One entry of the result: the hidden activations of token `t` against column `d` of the output projection. -/
def resultAt (X : STok.Idx → EReal) (Wg Wi : SIn.Idx → EReal) (Wo : SOut.Idx → EReal) (e : Fin 8) (t : Fin 2048) (d : Fin 2048) : EReal :=
  ∑ i : Fin 4096, gated X Wg Wi e t i * Wo (ix3 e i d)

/-- The whole result, entry by entry. -/
def result (X : STok.Idx → EReal) (Wg Wi : SIn.Idx → EReal) (Wo : SOut.Idx → EReal) : STok.Idx → EReal := fun j =>
  resultAt X Wg Wi Wo (j 0) (j 1) (j 2)

/-! ## The grid's arithmetic -/

/-- The expert grid point `n` works for. -/
def expertOf (n : ℕ) : Fin 8 := ⟨(n / 32) % 8, Nat.mod_lt _ (by decide)⟩
/-- Token row `r` of the row block grid point `n` works on. -/
def rowOf (n : ℕ) (r : Fin 512) : Fin 2048 := ⟨512 * ((n / 8) % 4) + r.val, by have := r.isLt; omega⟩
/-- Hidden feature `i` of the tile grid point `n` works on. -/
def tile (n : ℕ) (i : Fin 512) : Fin 4096 := ⟨512 * (n % 8) + i.val, by have := i.isLt; omega⟩

theorem expertOf_add (q s : ℕ) (hs : s < 8) : expertOf (8 * q + s) = expertOf (8 * q) :=
  Fin.ext (by show (8 * q + s) / 32 % 8 = 8 * q / 32 % 8; omega)
theorem rowOf_add (q s : ℕ) (hs : s < 8) (r : Fin 512) : rowOf (8 * q + s) r = rowOf (8 * q) r :=
  Fin.ext (by show 512 * ((8 * q + s) / 8 % 4) + r.val = 512 * (8 * q / 8 % 4) + r.val; omega)
theorem tile_add (q s : ℕ) (hs : s < 8) (i : Fin 512) : tile (8 * q + s) i = tile s i :=
  Fin.ext (by show 512 * ((8 * q + s) % 8) + i.val = 512 * (s % 8) + i.val; omega)

/-- What grid point `n` adds to its accumulator block at row `r`, column `d`: the partial sum over its tile of hidden features. -/
def addend (X : STok.Idx → EReal) (Wg Wi : SIn.Idx → EReal) (Wo : SOut.Idx → EReal) (n : ℕ) (r : Fin 512) (d : Fin 2048) : EReal :=
  ∑ i : Fin 512, gated X Wg Wi (expertOf n) (rowOf n r) (tile n i) * Wo (ix3 (expertOf n) (tile n i) d)

/-! ## Eight tiles of 512 are the 4096 -/

/-- A sum over `Fin 4096` is the sum over the eight tiles of the sums inside each. -/
theorem sum_tiles {β : Type*} [AddCommMonoid β] (f : Fin 4096 → β) :
    ∑ i, f i = ∑ s ∈ Finset.range 8, ∑ i : Fin 512, f (tile s i) := by
  rw [Finset.sum_range (fun s => ∑ i : Fin 512, f (tile s i)), ← Fintype.sum_prod_type' (fun (s : Fin 8) (i : Fin 512) => f (tile s.val i))]
  rw [← Equiv.sum_comp (finProdFinEquiv : Fin 8 × Fin 512 ≃ Fin 4096) f]
  refine Finset.sum_congr rfl fun p _ => congrArg f (Fin.ext ?_)
  have h8 := p.1.isLt
  show p.2.val + 512 * p.1.val = 512 * (p.1.val % 8) + p.2.val
  rw [Nat.mod_eq_of_lt h8]; omega

/-- The eight addends of one run of points make the result's entry. -/
theorem resultAt_eq_sum_addends (X : STok.Idx → EReal) (Wg Wi : SIn.Idx → EReal) (Wo : SOut.Idx → EReal) (q : ℕ) (r : Fin 512) (d : Fin 2048) :
    resultAt X Wg Wi Wo (expertOf (8 * q)) (rowOf (8 * q) r) d
      = ∑ s ∈ Finset.range 8, addend X Wg Wi Wo (8 * q + s) r d := by
  unfold resultAt
  rw [sum_tiles]
  refine Finset.sum_congr rfl fun s hs => ?_
  have hs8 : s < 8 := Finset.mem_range.mp hs
  unfold addend
  refine Finset.sum_congr rfl fun i _ => ?_
  rw [expertOf_add q s hs8, rowOf_add q s hs8, tile_add q s hs8]

end Cert.GatedExperts

end
-- ==== Proof.RefValue.lean ====
/-
  The reference computes `GatedExperts.result`.

  Its last operation is a batched product over the 4096 hidden features; its left operand at (e, t, i) is
  `(g · (1 / (1 + exp (-g)))) · u` with `g`, `u` the two batched products over the 2048 input features. On the
  extended reals `1 / (1 + exp (-g))` is the logistic function by definition, so the operand is `gated` and the
  whole term is `result`, index by index.
-/
import proofs.«108554_j57947698758265_1_alg».proof.Proof.Gen.ReferenceIdeal.Read
import proofs.«108554_j57947698758265_1_alg».proof.Proof.Spec
import Idealize.ShloMosaic.PureOps.Ideal.Laws

noncomputable section

open scoped BigOperators

namespace Cert.GatedExperts.Reference

open Idealize.ShloMosaic Idealize.ShloMosaic.ValueIdx
open Cert.ReferenceIdeal Cert.ReferenceIdeal.Read

/-- The word `0x3F800000` is the real number one. -/
theorem one_f32 : Ideal.ofBits .f32 0x3F800000#32 = 1 := IdealRules.sign_bit.ideal_onePat .f32

/-- The first projection at an entry. -/
theorem gate_apply (x0 : (⟨S8x2048x2048, .f32⟩ : BufTy).Contents (Elt Ideal)) (x1 : (⟨S8x2048x4096, .f32⟩ : BufTy).Contents (Elt Ideal))
    (e : Fin 8) (t : Fin 2048) (i : Fin 4096) :
    val_main_v0 (F := Ideal) x0 x1 (ix3 e t i) = proj x0 x1 e t i := by
  rw [val_main_v0_apply]
  unfold proj
  refine Finset.sum_congr rfl fun k _ => ?_
  have el : lidx_main_v0 (ix3 e t i) k = ix3 e t k := funext fun a => by
    match a with | ⟨0, _⟩ => rfl | ⟨1, _⟩ => rfl | ⟨2, _⟩ => rfl
  have er : ridx_main_v0 (ix3 e t i) k = ix3 e k i := funext fun a => by
    match a with | ⟨0, _⟩ => rfl | ⟨1, _⟩ => rfl | ⟨2, _⟩ => rfl
  rw [el, er]

/-- The second projection at an entry. -/
theorem up_apply (x0 : (⟨S8x2048x2048, .f32⟩ : BufTy).Contents (Elt Ideal)) (x2 : (⟨S8x2048x4096, .f32⟩ : BufTy).Contents (Elt Ideal))
    (e : Fin 8) (t : Fin 2048) (i : Fin 4096) :
    val_main_v1 (F := Ideal) x0 x2 (ix3 e t i) = proj x0 x2 e t i := by
  rw [val_main_v1_apply]
  unfold proj
  refine Finset.sum_congr rfl fun k _ => ?_
  have el : lidx_main_v1 (ix3 e t i) k = ix3 e t k := funext fun a => by
    match a with | ⟨0, _⟩ => rfl | ⟨1, _⟩ => rfl | ⟨2, _⟩ => rfl
  have er : ridx_main_v1 (ix3 e t i) k = ix3 e k i := funext fun a => by
    match a with | ⟨0, _⟩ => rfl | ⟨1, _⟩ => rfl | ⟨2, _⟩ => rfl
  rw [el, er]

/-- The reference's `1 / (1 + exp (-g))`, spelt in host operations, is the logistic function of `g`. -/
theorem silu_factor (g : EReal) :
    FloatOps.hostDivf (F := Ideal) (φ := .f32) (FloatOps.ofBits .f32 0x3F800000#32)
        (FloatOps.addf (FloatOps.ofBits .f32 0x3F800000#32) (FloatOps.hostUnary .exp (FloatOps.hostNegf g)))
      = Ideal.logistic g := by
  show Ideal.div (Ideal.ofBits .f32 0x3F800000#32) (Ideal.ofBits .f32 0x3F800000#32 + Ideal.exp (-g)) = _
  rw [one_f32]; rfl

/-- The hidden activation at an entry. -/
theorem gated_apply (x0 : (⟨S8x2048x2048, .f32⟩ : BufTy).Contents (Elt Ideal)) (x1 x2 : (⟨S8x2048x4096, .f32⟩ : BufTy).Contents (Elt Ideal))
    (e : Fin 8) (t : Fin 2048) (i : Fin 4096) :
    val_main_v3 (F := Ideal) x0 x1 x2 (ix3 e t i) = gated x0 x1 x2 e t i := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, up_apply, gate_apply, silu_factor]
  rfl

/-- The reference's result term is `result` of its arguments. -/
theorem value_eq (x0 : (⟨S8x2048x2048, .f32⟩ : BufTy).Contents (Elt Ideal)) (x1 x2 : (⟨S8x2048x4096, .f32⟩ : BufTy).Contents (Elt Ideal))
    (x3 : (⟨S8x4096x2048, .f32⟩ : BufTy).Contents (Elt Ideal)) :
    val_main_v4 (F := Ideal) x0 x1 x2 x3 = result x0 x1 x2 x3 := by
  funext j
  obtain ⟨e, t, d, rfl⟩ : ∃ (e : Fin 8) (t : Fin 2048) (d : Fin 2048), j = ix3 e t d := ⟨j 0, j 1, j 2, eq_ix3 j⟩
  rw [val_main_v4_apply]
  show _ = resultAt x0 x1 x2 x3 e t d
  unfold resultAt
  refine Finset.sum_congr rfl fun k _ => ?_
  have el : lidx_main_v4 (ix3 e t d) k = ix3 e t k := funext fun a => by
    match a with | ⟨0, _⟩ => rfl | ⟨1, _⟩ => rfl | ⟨2, _⟩ => rfl
  have er : ridx_main_v4 (ix3 e t d) k = ix3 e k d := funext fun a => by
    match a with | ⟨0, _⟩ => rfl | ⟨1, _⟩ => rfl | ⟨2, _⟩ => rfl
  rw [el, er, gated_apply]

end Cert.GatedExperts.Reference

end
-- ==== Proof.Pieces.lean ====
/-
  What each case of the kernel body leaves behind, as the body's own arithmetic.

  The body stores its accumulator and its output block whole, and loads every block whole, so what a case leaves in a buffer
  is the payload of the last store into it, with every load read as the buffer's contents:
    - at the first hidden tile of a run the accumulator is zeroed and then updated: it ends at the update of zero;
    - at every other tile it ends at the update of what the tile before left;
    - at the last tile the output block is the updated accumulator, viewed with a leading unit axis.
-/
import proofs.«108554_j57947698758265_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The zero offsets of a whole-buffer access, rank 2 and rank 3. -/
theorem zero2 : (![0, 0] : Fin 2 → ℕ) = fun _ => 0 := by funext a; fin_cases a <;> rfl
theorem zero3 : (![0, 0, 0] : Fin 3 → ℕ) = fun _ => 0 := by funext a; fin_cases a <;> rfl

/-- A tile that is neither first nor last: the accumulator ends at the update of what it held. -/
theorem scratch_B (c : Dev nD) (i : grid0.Coords) (arg3 : Memref sig .tc .vmem S1x512x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i)
    (x0 : Vec F S1x512x2048 .bf16) (x1 : Vec F S1x2048x512 .bf16) (x2 : Vec F S1x2048x512 .bf16) (x3 : Vec F S1x512x2048 .bf16) (xs0 : Vec F S512x2048 .f32) :
    sout0_B_0 c i arg3 harg3 arg4 harg4 arg5 harg5 arg6 harg6 arg7 harg7 arg8 harg8 hc0 hc1 x0 x1 x2 x3 xs0 = k0_pay2 x0 x1 x2 xs0 x3 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S512x2048) zero2]
  simp only [View.readAt_eq_ld, harg3.read_unread, harg4.read_unread, harg5.read_unread, harg6.read_unread, harg8.read_unread, View.ld_unit_zero (S := S1x512x2048) zero3, View.ld_unit_zero (S := S1x2048x512) zero3, View.ld_unit_zero (S := S512x2048) zero2]

/-- The first tile of a run: the accumulator is zeroed, read back, and ends at the update of zero. -/
theorem scratch_A (c : Dev nD) (i : grid0.Coords) (arg3 : Memref sig .tc .vmem S1x512x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i)
    (x0 : Vec F S1x512x2048 .bf16) (x1 : Vec F S1x2048x512 .bf16) (x2 : Vec F S1x2048x512 .bf16) (x3 : Vec F S1x512x2048 .bf16) :
    sout0_A_0 c i arg3 harg3 arg4 harg4 arg5 harg5 arg6 harg6 arg7 harg7 arg8 harg8 hc0 hc1 x0 x1 x2 x3 = k0_pay2 x0 x1 x2 (k0_pay1 (F := F)) x3 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x2048) zero2]
  simp only [View.readAt_eq_ld, harg3.read_unread, harg4.read_unread, harg5.read_unread, harg6.read_unread, harg8.read_unread, View.ld_unit_zero (S := S1x512x2048) zero3, View.ld_unit_zero (S := S1x2048x512) zero3, View.ld_unit_zero (S := S512x2048) zero2, View.readCov_unit_zero (S := S512x2048) _ zero2]

/-- The last tile of a run: the accumulator ends at the update of what it held, -/
theorem scratch_C (c : Dev nD) (i : grid0.Coords) (arg3 : Memref sig .tc .vmem S1x512x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 : Vec F S1x2048x512 .bf16) (x2 : Vec F S1x2048x512 .bf16) (x3 : Vec F S1x512x2048 .bf16) (xs0 : Vec F S512x2048 .f32) :
    sout0_C_0 c i arg3 harg3 arg4 harg4 arg5 harg5 arg6 harg6 arg7 harg7 arg8 harg8 hc0 hc1 x0 x1 x2 x3 xs0 = k0_pay2 x0 x1 x2 xs0 x3 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S512x2048) zero2]
  simp only [View.readAt_eq_ld, harg3.read_unread, harg4.read_unread, harg5.read_unread, harg6.read_unread, harg8.read_unread, View.ld_unit_zero (S := S1x512x2048) zero3, View.ld_unit_zero (S := S1x2048x512) zero3, View.ld_unit_zero (S := S512x2048) zero2]

/-- and the output block is that accumulator, read back and given its leading unit axis. -/
theorem out_C (c : Dev nD) (i : grid0.Coords) (arg3 : Memref sig .tc .vmem S1x512x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 : Vec F S1x2048x512 .bf16) (x2 : Vec F S1x2048x512 .bf16) (x3 : Vec F S1x512x2048 .bf16) (xs0 : Vec F S512x2048 .f32) :
    out0_C_4 c i arg3 harg3 arg4 harg4 arg5 harg5 arg6 harg6 arg7 harg7 arg8 harg8 hc0 hc1 x0 x1 x2 x3 xs0 = k0_pay3 (k0_pay2 x0 x1 x2 xs0 x3) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1x512x2048) zero3]
  simp only [View.readAt_eq_ld, harg3.read_unread, harg4.read_unread, harg5.read_unread, harg6.read_unread, harg8.read_unread, View.ld_unit_zero (S := S1x512x2048) zero3, View.ld_unit_zero (S := S1x2048x512) zero3, View.ld_unit_zero (S := S512x2048) zero2, View.readCov_unit_zero (S := S512x2048) _ zero2]

end Cert.KernelIdeal.Pieces

end
-- ==== Proof.Payload.lean ====
/-
  The body's arithmetic at one entry, on the extended reals.

  The update of the accumulator at row `r`, column `d` adds, to what it held there, the sum over the tile's 512 hidden
  features `i` of `(g · logistic g · u) · wo[i, d]`, where `g` and `u` are the sums over the 2048 input features `k` of
  `x[r, k] · wg[k, i]` and `x[r, k] · wi[k, i]`: each matrix product into a zero accumulator is the plain sum of
  products, a change of float format is the identity, and the blocks' leading unit axis only renames indices.
-/
import proofs.«108554_j57947698758265_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-! ## The leading unit axis of a block -/

/-- A [1, a, b] block viewed as [a, b] reads (0, p, q) at (p, q). -/
theorem dropUnit_apply {α : Type} {n0 n1 : Nat} (v : (⟨3, ![1, n0, n1]⟩ : Shape).Idx → α)
    (h : (⟨3, ![1, n0, n1]⟩ : Shape).ShapeCasts ⟨2, ![n0, n1]⟩) (p : Fin n0) (q : Fin n1) :
    shapeCast ⟨2, ![n0, n1]⟩ v h (ix2 p q) = v (ix3 (⟨0, Nat.one_pos⟩ : Fin 1) p q) :=
  (shapeCast_dropUnit_apply ![n0, n1] v h (ix2 p q)).trans (congrArg v (funext fun x => by
    match x with | ⟨0, _⟩ => rfl | ⟨1, _⟩ => rfl | ⟨2, _⟩ => rfl))

/-- An [a, b] value stored as a [1, a, b] block reads (p, q) at (0, p, q). -/
theorem addUnit_apply {α : Type} {n0 n1 : Nat} (v : (⟨2, ![n0, n1]⟩ : Shape).Idx → α)
    (h : (⟨2, ![n0, n1]⟩ : Shape).ShapeCasts ⟨3, ![1, n0, n1]⟩) (z : Fin 1) (p : Fin n0) (q : Fin n1) :
    shapeCast ⟨3, ![1, n0, n1]⟩ v h (ix3 z p q) = v (ix2 p q) :=
  (shapeCast_addUnit_apply ![n0, n1] v h (ix3 z p q)).trans (congrArg v (funext fun x => by
    match x with | ⟨0, _⟩ => rfl | ⟨1, _⟩ => rfl))

/-! ## The two matrix products, read at an entry -/

theorem proj_lhs_0 (j : S512x512.Idx) (q : dot_S512x2048_S2048x512_S512x512_1_0_0_1_n_n.contr.Idx) : (dot_S512x2048_S2048x512_S512x512_1_0_0_1_n_n.lhsIdx j q 0).val = (j 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem proj_lhs_1 (j : S512x512.Idx) (q : dot_S512x2048_S2048x512_S512x512_1_0_0_1_n_n.contr.Idx) : (dot_S512x2048_S2048x512_S512x512_1_0_0_1_n_n.lhsIdx j q 1).val = (q ⟨0, by decide⟩).val :=
  dot_S512x2048_S2048x512_S512x512_1_0_0_1_n_n.lhsIdx_val_of_single rfl j q
theorem proj_rhs_0 (j : S512x512.Idx) (q : dot_S512x2048_S2048x512_S512x512_1_0_0_1_n_n.contr.Idx) : (dot_S512x2048_S2048x512_S512x512_1_0_0_1_n_n.rhsIdx j q 0).val = (q ⟨0, by decide⟩).val :=
  dot_S512x2048_S2048x512_S512x512_1_0_0_1_n_n.rhsIdx_val_of_single rfl j q
theorem proj_rhs_1 (j : S512x512.Idx) (q : dot_S512x2048_S2048x512_S512x512_1_0_0_1_n_n.contr.Idx) : (dot_S512x2048_S2048x512_S512x512_1_0_0_1_n_n.rhsIdx j q 1).val = (j 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

theorem proj_apply (l : FVec Ideal S512x2048 .bf16) (r : FVec Ideal S2048x512 .bf16) (a : Fin 512) (b : Fin 512) :
    matmul dot_S512x2048_S2048x512_S512x512_1_0_0_1_n_n none l r (constant S512x512 .f32 0x00000000#32) (ix2 a b) = ∑ k : Fin 2048, l (ix2 a k) * r (ix2 k b) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 a b) ((contrEquiv1 dot_S512x2048_S2048x512_S512x512_1_0_0_1_n_n 2048 rfl rfl).symm k) = ix2 a k := funext fun x => Fin.ext (by
    match x with
    | ⟨0, _⟩ => exact proj_lhs_0 _ _
    | ⟨1, _⟩ => exact (proj_lhs_1 _ _).trans hk)
  have er : dot_S512x2048_S2048x512_S512x512_1_0_0_1_n_n.rhsIdx (ix2 a b) ((contrEquiv1 dot_S512x2048_S2048x512_S512x512_1_0_0_1_n_n 2048 rfl rfl).symm k) = ix2 k b := funext fun x => Fin.ext (by
    match x with
    | ⟨0, _⟩ => exact (proj_rhs_0 _ _).trans hk
    | ⟨1, _⟩ => exact proj_rhs_1 _ _)
  rw [el, er]

theorem down_lhs_0 (j : S512x2048.Idx) (q : dot_S512x512_S512x2048_S512x2048_1_0_0_1_n_n.contr.Idx) : (dot_S512x512_S512x2048_S512x2048_1_0_0_1_n_n.lhsIdx j q 0).val = (j 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem down_lhs_1 (j : S512x2048.Idx) (q : dot_S512x512_S512x2048_S512x2048_1_0_0_1_n_n.contr.Idx) : (dot_S512x512_S512x2048_S512x2048_1_0_0_1_n_n.lhsIdx j q 1).val = (q ⟨0, by decide⟩).val :=
  dot_S512x512_S512x2048_S512x2048_1_0_0_1_n_n.lhsIdx_val_of_single rfl j q
theorem down_rhs_0 (j : S512x2048.Idx) (q : dot_S512x512_S512x2048_S512x2048_1_0_0_1_n_n.contr.Idx) : (dot_S512x512_S512x2048_S512x2048_1_0_0_1_n_n.rhsIdx j q 0).val = (q ⟨0, by decide⟩).val :=
  dot_S512x512_S512x2048_S512x2048_1_0_0_1_n_n.rhsIdx_val_of_single rfl j q
theorem down_rhs_1 (j : S512x2048.Idx) (q : dot_S512x512_S512x2048_S512x2048_1_0_0_1_n_n.contr.Idx) : (dot_S512x512_S512x2048_S512x2048_1_0_0_1_n_n.rhsIdx j q 1).val = (j 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

theorem down_apply (l : FVec Ideal S512x512 .bf16) (r : FVec Ideal S512x2048 .bf16) (a : Fin 512) (b : Fin 2048) :
    matmul dot_S512x512_S512x2048_S512x2048_1_0_0_1_n_n none l r (constant S512x2048 .f32 0x00000000#32) (ix2 a b) = ∑ k : Fin 512, l (ix2 a k) * r (ix2 k b) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 a b) ((contrEquiv1 dot_S512x512_S512x2048_S512x2048_1_0_0_1_n_n 512 rfl rfl).symm k) = ix2 a k := funext fun x => Fin.ext (by
    match x with
    | ⟨0, _⟩ => exact down_lhs_0 _ _
    | ⟨1, _⟩ => exact (down_lhs_1 _ _).trans hk)
  have er : dot_S512x512_S512x2048_S512x2048_1_0_0_1_n_n.rhsIdx (ix2 a b) ((contrEquiv1 dot_S512x512_S512x2048_S512x2048_1_0_0_1_n_n 512 rfl rfl).symm k) = ix2 k b := funext fun x => Fin.ext (by
    match x with
    | ⟨0, _⟩ => exact (down_rhs_0 _ _).trans hk
    | ⟨1, _⟩ => exact down_rhs_1 _ _)
  rw [el, er]

/-! ## The accumulator's update and the output's store -/

/-- The logistic function of a vector acts entry by entry. -/
theorem logistic_apply {s : Shape} (v : FVec Ideal s .f32) (j : s.Idx) : logistic v j = Ideal.logistic (v j) := rfl

/-- One projection of the token block at (r, i). -/
def blockProj (x : Vec Ideal S1x512x2048 .bf16) (w : Vec Ideal S1x2048x512 .bf16) (r : Fin 512) (i : Fin 512) : EReal :=
  ∑ k : Fin 2048, x (ix3 (⟨0, Nat.one_pos⟩ : Fin 1) r k) * w (ix3 (⟨0, Nat.one_pos⟩ : Fin 1) k i)

/-- The accumulator's update at an entry. -/
theorem update_apply (x : Vec Ideal S1x512x2048 .bf16) (wg wi : Vec Ideal S1x2048x512 .bf16) (acc : Vec Ideal S512x2048 .f32)
    (wo : Vec Ideal S1x512x2048 .bf16) (r : Fin 512) (d : Fin 2048) :
    k0_pay2 x wg wi acc wo (ix2 r d)
      = acc (ix2 r d) + ∑ i : Fin 512, blockProj x wg r i * Ideal.logistic (blockProj x wg r i) * blockProj x wi r i
          * wo (ix3 (⟨0, Nat.one_pos⟩ : Fin 1) i d) := by
  unfold k0_pay2
  rw [shapeCast_self, addf_apply, down_apply]
  refine congrArg (acc (ix2 r d) + ·) (Finset.sum_congr rfl fun i _ => ?_)
  rw [truncf_apply, mulf_apply, mulf_apply, logistic_apply, proj_apply, proj_apply]
  unfold blockProj
  simp only [dropUnit_apply]

/-- The zeroed accumulator is zero everywhere. -/
theorem zero_apply (j : S512x2048.Idx) : k0_pay1 (F := Ideal) j = 0 := by
  unfold k0_pay1
  rw [shapeCast_self]
  exact Ideal.ofBits_zero_f32

/-- The output block at (0, r, d) is the accumulator at (r, d). -/
theorem store_apply (acc : Vec Ideal S512x2048 .f32) (z : Fin 1) (r : Fin 512) (d : Fin 2048) :
    k0_pay3 acc (ix3 z r d) = acc (ix2 r d) := by
  unfold k0_pay3
  exact addUnit_apply acc _ z r d

end Cert.KernelIdeal.Payload

end
-- ==== Proof.Blocks.lean ====
/-
  The blocks the kernel is handed, read off the argument arrays.

  The host converts the four arguments to a narrower float format before the call, which changes nothing on the extended
  reals, so the region finds the arguments themselves. Grid point `n` is expert `n / 32`, token block `n / 8 % 4`, hidden tile
  `n % 8`; its windows are
    tokens        [1, 512, 2048] at block (expert, token block, 0),
    projections   [1, 2048, 512] at block (expert, 0, hidden tile),
    output proj.  [1, 512, 2048] at block (expert, hidden tile, 0),
    result        [1, 512, 2048] at block (expert, token block, 0),
  and an entry of a block is the entry of the array at block index × block size + the entry's own coordinate.
-/
import proofs.«108554_j57947698758265_1_alg».proof.Proof.Gen.KernelIdeal.Frame
import proofs.«108554_j57947698758265_1_alg».proof.Proof.Spec
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Cert.GatedExperts
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The region finds the arguments -/

theorem V_tok (c : Dev nD) : (V m c main_v0 : S8x2048x2048.Idx → EReal) = (m ((c : Thread nD τ).loc main_arg0) : S8x2048x2048.Idx → EReal) := by
  dsimp only [V, hostOps0]; after_results; rfl
theorem V_gate (c : Dev nD) : (V m c main_v1 : S8x2048x4096.Idx → EReal) = (m ((c : Thread nD τ).loc main_arg1) : S8x2048x4096.Idx → EReal) := by
  dsimp only [V, hostOps0]; after_results; rfl
theorem V_up (c : Dev nD) : (V m c main_v2 : S8x2048x4096.Idx → EReal) = (m ((c : Thread nD τ).loc main_arg2) : S8x2048x4096.Idx → EReal) := by
  dsimp only [V, hostOps0]; after_results; rfl
theorem V_out (c : Dev nD) : (V m c main_v3 : S8x4096x2048.Idx → EReal) = (m ((c : Thread nD τ).loc main_arg3) : S8x4096x2048.Idx → EReal) := by
  dsimp only [V, hostOps0]; after_results; rfl

/-! ## The windows' block indices over the grid -/

theorem idx_tok : ∀ t : Fin cfg0.N, win0_0.index t (0 : Fin 3) = t.val / 32 ∧ win0_0.index t (1 : Fin 3) = t.val / 8 % 4 ∧ win0_0.index t (2 : Fin 3) = 0 :=
  (by decide +kernel : ∀ t : Fin grid0.N, win0_0.index t (0 : Fin 3) = t.val / 32 ∧ win0_0.index t (1 : Fin 3) = t.val / 8 % 4 ∧ win0_0.index t (2 : Fin 3) = 0)
theorem idx_gate : ∀ t : Fin cfg0.N, win0_1.index t (0 : Fin 3) = t.val / 32 ∧ win0_1.index t (1 : Fin 3) = 0 ∧ win0_1.index t (2 : Fin 3) = t.val % 8 :=
  (by decide +kernel : ∀ t : Fin grid0.N, win0_1.index t (0 : Fin 3) = t.val / 32 ∧ win0_1.index t (1 : Fin 3) = 0 ∧ win0_1.index t (2 : Fin 3) = t.val % 8)
theorem idx_up : ∀ t : Fin cfg0.N, win0_2.index t (0 : Fin 3) = t.val / 32 ∧ win0_2.index t (1 : Fin 3) = 0 ∧ win0_2.index t (2 : Fin 3) = t.val % 8 :=
  (by decide +kernel : ∀ t : Fin grid0.N, win0_2.index t (0 : Fin 3) = t.val / 32 ∧ win0_2.index t (1 : Fin 3) = 0 ∧ win0_2.index t (2 : Fin 3) = t.val % 8)
theorem idx_out : ∀ t : Fin cfg0.N, win0_3.index t (0 : Fin 3) = t.val / 32 ∧ win0_3.index t (1 : Fin 3) = t.val % 8 ∧ win0_3.index t (2 : Fin 3) = 0 :=
  (by decide +kernel : ∀ t : Fin grid0.N, win0_3.index t (0 : Fin 3) = t.val / 32 ∧ win0_3.index t (1 : Fin 3) = t.val % 8 ∧ win0_3.index t (2 : Fin 3) = 0)
theorem idx_res : ∀ t : Fin cfg0.N, win0_4.index t (0 : Fin 3) = t.val / 32 ∧ win0_4.index t (1 : Fin 3) = t.val / 8 % 4 ∧ win0_4.index t (2 : Fin 3) = 0 :=
  (by decide +kernel : ∀ t : Fin grid0.N, win0_4.index t (0 : Fin 3) = t.val / 32 ∧ win0_4.index t (1 : Fin 3) = t.val / 8 % 4 ∧ win0_4.index t (2 : Fin 3) = 0)

/-! ## The input blocks, by their literal types -/

abbrev tokBlk (c : Dev nD) (t : Fin cfg0.N) : Vec Ideal S1x512x2048 .bf16 := iblk m c 0 t
abbrev gateBlk (c : Dev nD) (t : Fin cfg0.N) : Vec Ideal S1x2048x512 .bf16 := iblk m c 1 t
abbrev upBlk (c : Dev nD) (t : Fin cfg0.N) : Vec Ideal S1x2048x512 .bf16 := iblk m c 2 t
abbrev outBlk (c : Dev nD) (t : Fin cfg0.N) : Vec Ideal S1x512x2048 .bf16 := iblk m c 3 t

/-- Row `r`, input feature `k` of the token block at point `t`. -/
theorem tokBlk_apply (c : Dev nD) (t : Fin cfg0.N) (z : Fin 1) (r : Fin 512) (k : Fin 2048) :
    tokBlk m c t (ix3 z r k) = m ((c : Thread nD τ).loc main_arg0) (ix3 (expertOf t.val) (rowOf t.val r) k) := by
  show iblk m c 0 t (ix3 z r k) = _
  unfold iblk
  rw [View.read_apply]
  show (V m c main_v0 : S8x2048x2048.Idx → EReal) (((cfg0.win 0).blk t).view.emb (ix3 z r k)) = _
  rw [V_tok]
  obtain ⟨e0, e1, e2⟩ := idx_tok t
  have hN : t.val < 256 := lt_of_lt_of_eq t.isLt (show cfg0.N = 256 from N_0)
  have hz : z.val = 0 := by have := z.isLt; omega
  refine congrArg _ (funext fun a => Fin.ext ?_)
  match a with
  | ⟨0, _⟩ => show win0_0.index t (0 : Fin 3) * 1 + 1 * z.val = t.val / 32 % 8; omega
  | ⟨1, _⟩ => show win0_0.index t (1 : Fin 3) * 512 + 1 * r.val = 512 * (t.val / 8 % 4) + r.val; omega
  | ⟨2, _⟩ => show win0_0.index t (2 : Fin 3) * 2048 + 1 * k.val = k.val; omega

/-- Input feature `k`, hidden feature `i` of the first projection's block at point `t`. -/
theorem gateBlk_apply (c : Dev nD) (t : Fin cfg0.N) (z : Fin 1) (k : Fin 2048) (i : Fin 512) :
    gateBlk m c t (ix3 z k i) = m ((c : Thread nD τ).loc main_arg1) (ix3 (expertOf t.val) k (tile t.val i)) := by
  show iblk m c 1 t (ix3 z k i) = _
  unfold iblk
  rw [View.read_apply]
  show (V m c main_v1 : S8x2048x4096.Idx → EReal) (((cfg0.win 1).blk t).view.emb (ix3 z k i)) = _
  rw [V_gate]
  obtain ⟨e0, e1, e2⟩ := idx_gate t
  have hN : t.val < 256 := lt_of_lt_of_eq t.isLt (show cfg0.N = 256 from N_0)
  have hz : z.val = 0 := by have := z.isLt; omega
  refine congrArg _ (funext fun a => Fin.ext ?_)
  match a with
  | ⟨0, _⟩ => show win0_1.index t (0 : Fin 3) * 1 + 1 * z.val = t.val / 32 % 8; omega
  | ⟨1, _⟩ => show win0_1.index t (1 : Fin 3) * 2048 + 1 * k.val = k.val; omega
  | ⟨2, _⟩ => show win0_1.index t (2 : Fin 3) * 512 + 1 * i.val = 512 * (t.val % 8) + i.val; omega

/-- The same of the second projection's block. -/
theorem upBlk_apply (c : Dev nD) (t : Fin cfg0.N) (z : Fin 1) (k : Fin 2048) (i : Fin 512) :
    upBlk m c t (ix3 z k i) = m ((c : Thread nD τ).loc main_arg2) (ix3 (expertOf t.val) k (tile t.val i)) := by
  show iblk m c 2 t (ix3 z k i) = _
  unfold iblk
  rw [View.read_apply]
  show (V m c main_v2 : S8x2048x4096.Idx → EReal) (((cfg0.win 2).blk t).view.emb (ix3 z k i)) = _
  rw [V_up]
  obtain ⟨e0, e1, e2⟩ := idx_up t
  have hN : t.val < 256 := lt_of_lt_of_eq t.isLt (show cfg0.N = 256 from N_0)
  have hz : z.val = 0 := by have := z.isLt; omega
  refine congrArg _ (funext fun a => Fin.ext ?_)
  match a with
  | ⟨0, _⟩ => show win0_2.index t (0 : Fin 3) * 1 + 1 * z.val = t.val / 32 % 8; omega
  | ⟨1, _⟩ => show win0_2.index t (1 : Fin 3) * 2048 + 1 * k.val = k.val; omega
  | ⟨2, _⟩ => show win0_2.index t (2 : Fin 3) * 512 + 1 * i.val = 512 * (t.val % 8) + i.val; omega

/-- Hidden feature `i`, output feature `d` of the output projection's block at point `t`. -/
theorem outBlk_apply (c : Dev nD) (t : Fin cfg0.N) (z : Fin 1) (i : Fin 512) (d : Fin 2048) :
    outBlk m c t (ix3 z i d) = m ((c : Thread nD τ).loc main_arg3) (ix3 (expertOf t.val) (tile t.val i) d) := by
  show iblk m c 3 t (ix3 z i d) = _
  unfold iblk
  rw [View.read_apply]
  show (V m c main_v3 : S8x4096x2048.Idx → EReal) (((cfg0.win 3).blk t).view.emb (ix3 z i d)) = _
  rw [V_out]
  obtain ⟨e0, e1, e2⟩ := idx_out t
  have hN : t.val < 256 := lt_of_lt_of_eq t.isLt (show cfg0.N = 256 from N_0)
  have hz : z.val = 0 := by have := z.isLt; omega
  refine congrArg _ (funext fun a => Fin.ext ?_)
  match a with
  | ⟨0, _⟩ => show win0_3.index t (0 : Fin 3) * 1 + 1 * z.val = t.val / 32 % 8; omega
  | ⟨1, _⟩ => show win0_3.index t (1 : Fin 3) * 512 + 1 * i.val = 512 * (t.val % 8) + i.val; omega
  | ⟨2, _⟩ => show win0_3.index t (2 : Fin 3) * 2048 + 1 * d.val = d.val; omega

/-! ## The result window -/

/-- The array entry under entry (z, r, d) of the result's block at point `t`. -/
theorem resBlk_emb (t : Fin cfg0.N) (z : Fin 1) (r : Fin 512) (d : Fin 2048) :
    ((cfg0.win 4).blk t).view.emb (ix3 z r d) = (ix3 (expertOf t.val) (rowOf t.val r) d : S8x2048x2048.Idx) := by
  obtain ⟨e0, e1, e2⟩ := idx_res t
  have hN : t.val < 256 := lt_of_lt_of_eq t.isLt (show cfg0.N = 256 from N_0)
  have hz : z.val = 0 := by have := z.isLt; omega
  refine funext fun a => Fin.ext ?_
  match a with
  | ⟨0, _⟩ => show win0_4.index t (0 : Fin 3) * 1 + 1 * z.val = t.val / 32 % 8; omega
  | ⟨1, _⟩ => show win0_4.index t (1 : Fin 3) * 512 + 1 * r.val = 512 * (t.val / 8 % 4) + r.val; omega
  | ⟨2, _⟩ => show win0_4.index t (2 : Fin 3) * 2048 + 1 * d.val = d.val; omega

/-- An entry of the result array is in point `t`'s block iff each coordinate is in the block's range on its axis. -/
theorem mem_resBlk (t : Fin cfg0.N) (i : S8x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v4).slice (win0_4.rect t)).set ↔ _
  rw [View.set_slice_whole, Rect.mem_set_unit]
  exact Iff.rfl

end Cert.KernelIdeal.Blocks

end
-- ==== Proof.Accumulate.lean ====
/-
  The kernel's result array is `GatedExperts.result` of its arguments.

  Over a run of eight grid points (one expert, one block of 512 token rows, the eight tiles of hidden features) the
  accumulator is zeroed at the first point and at every point gains that point's addend: after point `8q + j` its entry
  (r, d) is the sum of the addends of points `8q … 8q + j`. At the run's last point the output block is the accumulator, so
  its entry is the sum of all eight addends, which is the result's entry (eight tiles of 512 make the 4096). Only the last
  point of each run writes its block back, and those 32 blocks tile the result array.
-/
import proofs.«108554_j57947698758265_1_alg».proof.Proof.Gen.KernelIdeal.Value
import proofs.«108554_j57947698758265_1_alg».proof.Proof.Pieces
import proofs.«108554_j57947698758265_1_alg».proof.Proof.Payload
import proofs.«108554_j57947698758265_1_alg».proof.Proof.Blocks
import proofs.«108554_j57947698758265_1_alg».proof.Proof.Spec

noncomputable section

open scoped BigOperators

namespace Cert.KernelIdeal.Accumulate

open Cert.KernelIdeal Cert.KernelIdeal.Gen Cert.KernelIdeal.Blocks Cert.KernelIdeal.Payload Cert.GatedExperts
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The four arguments as arrays of extended reals. -/
abbrev tok (c : Dev nD) : STok.Idx → EReal := m ((c : Thread nD τ).loc main_arg0)
abbrev gate (c : Dev nD) : SIn.Idx → EReal := m ((c : Thread nD τ).loc main_arg1)
abbrev up (c : Dev nD) : SIn.Idx → EReal := m ((c : Thread nD τ).loc main_arg2)
abbrev outp (c : Dev nD) : SOut.Idx → EReal := m ((c : Thread nD τ).loc main_arg3)

/-- What the result array ends holding. -/
abbrev value (c : Dev nD) : Buf (Elt Ideal) ((c : Thread nD τ).loc main_v4) := result (tok m c) (gate m c) (up m c) (outp m c)

/-! ## One point's step -/

/-- The body's update at point `n`, at an entry: what the accumulator held plus the point's addend. -/
theorem update_entry (c : Dev nD) (t : Fin cfg0.N) (acc : Vec Ideal S512x2048 .f32) (r : Fin 512) (d : Fin 2048) :
    k0_pay2 (tokBlk m c t) (gateBlk m c t) (upBlk m c t) acc (outBlk m c t) (ix2 r d)
      = acc (ix2 r d) + addend (tok m c) (gate m c) (up m c) (outp m c) t.val r d := by
  rw [update_apply]
  refine congrArg (acc (ix2 r d) + ·) ?_
  unfold addend gated
  refine Finset.sum_congr rfl fun i _ => ?_
  have hg : blockProj (tokBlk m c t) (gateBlk m c t) r i = proj (tok m c) (gate m c) (expertOf t.val) (rowOf t.val r) (tile t.val i) := by
    unfold blockProj proj
    exact Finset.sum_congr rfl fun k _ => by rw [tokBlk_apply, gateBlk_apply]
  have hu : blockProj (tokBlk m c t) (upBlk m c t) r i = proj (tok m c) (up m c) (expertOf t.val) (rowOf t.val r) (tile t.val i) := by
    unfold blockProj proj
    exact Finset.sum_congr rfl fun k _ => by rw [tokBlk_apply, upBlk_apply]
  rw [hg, hu, outBlk_apply]

/-- What point `n` leaves in the accumulator is the body's update, of zero at the first point of a run and of what the
    point before left elsewhere. -/
theorem step_eq (c : Dev nD) (n : ℕ) (hb : n < cfg0.N) (acc : Vec Ideal S512x2048 .f32) :
    Value.scAt0_0 m c n hb acc
      = k0_pay2 (tokBlk m c (⟨n, hb⟩ : Fin cfg0.N)) (gateBlk m c (⟨n, hb⟩ : Fin cfg0.N)) (upBlk m c (⟨n, hb⟩ : Fin cfg0.N)) (if n % 8 = 0 then k0_pay1 (F := Ideal) else acc) (outBlk m c (⟨n, hb⟩ : Fin cfg0.N)) := by
  unfold Value.scAt0_0
  by_cases h0 : n % 8 = 0
  · have h1 : ¬n % 8 = 7 := by omega
    rw [dif_pos h0, dif_neg h1, if_pos h0]
    exact Pieces.scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  · by_cases h1 : n % 8 = 7
    · rw [dif_neg h0, dif_pos h1, if_neg h0]
      exact Pieces.scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
    · rw [dif_neg h0, dif_neg h1, if_neg h0]
      exact Pieces.scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- The same at an entry. -/
theorem step_entry (c : Dev nD) (n : ℕ) (hb : n < cfg0.N) (acc : Vec Ideal S512x2048 .f32) (r : Fin 512) (d : Fin 2048) :
    Value.scAt0_0 m c n hb acc (ix2 r d)
      = (if n % 8 = 0 then 0 else acc (ix2 r d)) + addend (tok m c) (gate m c) (up m c) (outp m c) n r d := by
  rw [step_eq, update_entry]
  by_cases h0 : n % 8 = 0
  · rw [if_pos h0, if_pos h0, zero_apply]
  · rw [if_neg h0, if_neg h0]

/-! ## A run of points -/

/-- After `j + 1` points of the run that starts at `b` the accumulator's entry is the sum of their addends. -/
theorem fold_entry (c : Dev nD) (b : ℕ) (hb8 : b % 8 = 0) (r : Fin 512) (d : Fin 2048) :
    ∀ (j : ℕ) (h : b + j < cfg0.N), j < 8 →
      Pipeline.accAt (fun n h => Value.scAt0_0 m c n h (VS0_0.read (Elt Ideal) VS0_0.junk)) (Value.scAt0_0 m c) b j h (ix2 r d)
        = ∑ s ∈ Finset.range (j + 1), addend (tok m c) (gate m c) (up m c) (outp m c) (b + s) r d
  | 0, h, _ => by
    rw [Pipeline.accAt_zero, step_entry, if_pos hb8, zero_add, Finset.sum_range_succ, Finset.sum_range_zero, zero_add]
    rfl
  | j + 1, h, hj => by
    rw [Pipeline.accAt_succ, step_entry, if_neg (by omega), fold_entry c b hb8 r d j (Nat.lt_of_succ_lt h) (by omega),
      Finset.sum_range_succ _ (j + 1)]

end Cert.KernelIdeal.Accumulate

end
-- ==== Proof.KernelValue.lean ====
/-
  The kernel's run ends with the result array at `GatedExperts.result` of its arguments.

  The last point of each run of eight writes back its output block, which is the accumulator after all eight updates: its
  entry (r, d) is the sum of the run's eight addends, the result's entry at the run's expert and token row. The 32 blocks
  written back (8 experts × 4 blocks of 512 token rows) tile the [8, 2048, 2048] array: entry (e, t, d) lies in the block
  written at point `32·e + 8·(t / 512) + 7`.
-/
import proofs.«108554_j57947698758265_1_alg».proof.Proof.Accumulate

noncomputable section

open scoped BigOperators

namespace Cert.KernelIdeal.Accumulate

open Cert.KernelIdeal Cert.KernelIdeal.Gen Cert.KernelIdeal.Blocks Cert.KernelIdeal.Payload Cert.GatedExperts
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- At the last point of a run the output block's entry is the result's. -/
theorem out_entry (c : Dev nD) (t : Fin cfg0.N) (h1 : t.val % 8 = 7) (z : Fin 1) (r : Fin 512) (d : Fin 2048) :
    k0_pay3 (k0_pay2 (tokBlk m c t) (gateBlk m c t) (upBlk m c t) (outsAt0 m c (t.val - 1) (Nat.lt_of_le_of_lt (Nat.sub_le _ _) t.isLt)).2 (outBlk m c t)) (ix3 z r d)
      = resultAt (tok m c) (gate m c) (up m c) (outp m c) (expertOf t.val) (rowOf t.val r) d := by
  have hN : t.val < 256 := lt_of_lt_of_eq t.isLt (show cfg0.N = 256 from N_0)
  obtain ⟨q, hq⟩ : ∃ q, t.val = 8 * q + 7 := ⟨t.val / 8, by omega⟩
  have hprev : (outsAt0 m c (t.val - 1) (Nat.lt_of_le_of_lt (Nat.sub_le _ _) t.isLt)).2
      = Pipeline.accAt (fun n h => Value.scAt0_0 m c n h (VS0_0.read (Elt Ideal) VS0_0.junk)) (Value.scAt0_0 m c)
          (8 * ((t.val - 1) / 8)) ((t.val - 1) % 8) (by have := Nat.div_add_mod (t.val - 1) 8; have := t.isLt; omega) :=
    Value.soutsAt0_0_eq m c ⟨t.val - 1, Nat.lt_of_le_of_lt (Nat.sub_le _ _) t.isLt⟩
  rw [store_apply, update_entry, hprev,
    fold_entry m c (8 * ((t.val - 1) / 8)) (Nat.mul_mod_right 8 _) r d ((t.val - 1) % 8) _ (Nat.mod_lt _ (by decide))]
  have e6 : (t.val - 1) % 8 + 1 = 7 := by omega
  have eb : 8 * ((t.val - 1) / 8) = 8 * q := by omega
  have e1 : expertOf t.val = expertOf (8 * q) := by rw [hq]; exact expertOf_add q 7 (by decide)
  have e2 : rowOf t.val r = rowOf (8 * q) r := by rw [hq]; exact rowOf_add q 7 (by decide) r
  rw [e6, eb, e1, e2, resultAt_eq_sum_addends, Finset.sum_range_succ _ 7, ← hq]

/-- WHAT A WRITING POINT WRITES BACK is its block of the result. -/
theorem flushed_eq (c : Dev nD) (t : Fin cfg0.N) (hf : (cfg0.win 4).flush t = true) :
    (dats m 0 c).flushed 4 t = ((cfg0.win 4).blk t).view.read (Elt Ideal) (value m c) := by
  have h1 : t.val % 8 = 7 := (flush0_4 t).mp hf
  have h0 : ¬t.val % 8 = 0 := by omega
  rw [Value.flushed4_C m c t h0 h1,
    Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  show (k0_pay3 (k0_pay2 (tokBlk m c t) (gateBlk m c t) (upBlk m c t) (outsAt0 m c (t.val - 1) (Nat.lt_of_le_of_lt (Nat.sub_le _ _) t.isLt)).2 (outBlk m c t)) : S1x512x2048.Idx → EReal)
      = fun y => value m c (((cfg0.win 4).blk t).view.emb y)
  funext y
  obtain ⟨z, r, d, rfl⟩ : ∃ (z : Fin 1) (r : Fin 512) (d : Fin 2048), y = ix3 z r d := ⟨y 0, y 1, y 2, eq_ix3 y⟩
  rw [out_entry m c t h1, resBlk_emb]
  rfl

/-- Every entry of the result array lies in the block some point writes back. -/
theorem cover (i : S8x2048x2048.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  have hN : cfg0.N = 256 := N_0
  refine ⟨(⟨32 * (i 0).val + 8 * ((i 1).val / 512) + 7, by rw [hN]; omega⟩ : Fin cfg0.N), (flush0_4 _).mpr (by show (32 * (i 0).val + 8 * ((i 1).val / 512) + 7) % 8 = 7; omega), ?_⟩
  rw [mem_resBlk]
  obtain ⟨e0, e1, e2⟩ := idx_res (⟨32 * (i 0).val + 8 * ((i 1).val / 512) + 7, by rw [hN]; omega⟩ : Fin cfg0.N)
  simp only [Fin.val_mk] at e0 e1 e2
  intro a
  match a with
  | ⟨0, _⟩ =>
    show win0_4.index (⟨32 * (i 0).val + 8 * ((i 1).val / 512) + 7, by rw [hN]; omega⟩ : Fin cfg0.N) (0 : Fin 3) * 1 ≤ (i 0).val ∧ (i 0).val < win0_4.index (⟨32 * (i 0).val + 8 * ((i 1).val / 512) + 7, by rw [hN]; omega⟩ : Fin cfg0.N) (0 : Fin 3) * 1 + 1
    omega
  | ⟨1, _⟩ =>
    show win0_4.index (⟨32 * (i 0).val + 8 * ((i 1).val / 512) + 7, by rw [hN]; omega⟩ : Fin cfg0.N) (1 : Fin 3) * 512 ≤ (i 1).val ∧ (i 1).val < win0_4.index (⟨32 * (i 0).val + 8 * ((i 1).val / 512) + 7, by rw [hN]; omega⟩ : Fin cfg0.N) (1 : Fin 3) * 512 + 512
    omega
  | ⟨2, _⟩ =>
    show win0_4.index (⟨32 * (i 0).val + 8 * ((i 1).val / 512) + 7, by rw [hN]; omega⟩ : Fin cfg0.N) (2 : Fin 3) * 2048 ≤ (i 2).val ∧ (i 2).val < win0_4.index (⟨32 * (i 0).val + 8 * ((i 1).val / 512) + 7, by rw [hN]; omega⟩ : Fin cfg0.N) (2 : Fin 3) * 2048 + 2048
    omega

/-- The result array after the run. -/
theorem final (c : Dev nD) : (dats m 0 c).arrAt 4 cfg0.N = value m c :=
  (dats m 0 c).arrAt_eq_of_cover 4 (value m c) (flushed_eq m c) cover

/-- Every weakly fair execution of the kernel's program ends with the result array at `value` and the arguments unchanged. -/
theorem run : θ_run defs (onTc (τ := τ) (main (F := Ideal))) ⟨m, fun _ => 0, ρ⟩ fun r => ∀ c : Dev nD,
      r.2.mem ((c : Thread nD τ).loc main_v4) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Accumulate

end
-- ==== Proof.lean ====
/-
  A gated expert network, 8 experts over 2048 tokens: `out = (SiLU(x·Wg) · (x·Wi)) · Wo` per expert, as a tiled kernel
  against three batched matrix products.

  The kernel sweeps, for each expert and each block of 512 token rows, the eight tiles of 512 hidden features: it zeroes an
  accumulator at the first tile, adds `(SiLU(x·Wg_tile) · (x·Wi_tile)) · Wo_tile` at every tile, and writes the accumulator
  out at the last. On the extended reals a change of float format is the identity, a matrix product into a zero accumulator
  is the sum of products, the kernel's logistic function and the reference's `1 / (1 + exp (-g))` are one function, and the
  eight partial sums over 512 hidden features are the reference's one sum over 4096, by commutativity and associativity of
  addition alone: no entry needs to be finite, and the precondition is never opened.

  The modules: `Spec` (the result as one function of the arguments, a point's addend, eight tiles make the sum),
  `RefValue` (the reference computes it), `Pieces` (what each case of the body leaves, as the body's arithmetic), `Payload`
  (that arithmetic at an entry), `Blocks` (the blocks read off the arguments), `Accumulate` (a run of eight points sums its
  addends), `KernelValue` (the written blocks are the result's and tile it).
-/
import proofs.«108554_j57947698758265_1_alg».proof.Defs
import proofs.«108554_j57947698758265_1_alg».proof.Proof.Gen.Kernel
import proofs.«108554_j57947698758265_1_alg».proof.Proof.Gen.Kernel.Skeleton
import proofs.«108554_j57947698758265_1_alg».proof.Proof.Gen.Kernel.Launch
import proofs.«108554_j57947698758265_1_alg».proof.Proof.Gen.Kernel.Points
import proofs.«108554_j57947698758265_1_alg».proof.Proof.Gen.Kernel.Frame
import proofs.«108554_j57947698758265_1_alg».proof.Proof.Gen.KernelIdeal
import proofs.«108554_j57947698758265_1_alg».proof.Proof.Gen.KernelIdeal.Skeleton
import proofs.«108554_j57947698758265_1_alg».proof.Proof.Gen.KernelIdeal.Launch
import proofs.«108554_j57947698758265_1_alg».proof.Proof.Gen.KernelIdeal.Points
import proofs.«108554_j57947698758265_1_alg».proof.Proof.Gen.KernelIdeal.Frame
import proofs.«108554_j57947698758265_1_alg».proof.Proof.Gen.ReferenceIdeal
import proofs.«108554_j57947698758265_1_alg».proof.Proof.Gen.Pre_finite_inputs
import proofs.«108554_j57947698758265_1_alg».proof.Proof.Gen.KernelIdeal.Value
import proofs.«108554_j57947698758265_1_alg».proof.Proof.Gen.ReferenceIdeal.Run
import proofs.«108554_j57947698758265_1_alg».proof.Proof.Gen.ReferenceIdeal.Read
import proofs.«108554_j57947698758265_1_alg».proof.Proof.RefValue
import proofs.«108554_j57947698758265_1_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at `GatedExperts.result` of arguments that agree. -/
theorem algebraic : Cert.algebraic_KernelIdeal_ReferenceIdeal := by
  intro m ρ m' ρ' _ hagree
  refine ⟨fun c => Cert.KernelIdeal.Accumulate.value m c, Cert.KernelIdeal.Accumulate.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.GatedExperts.Reference.value_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
